-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x20000 : Shape := ⟨2, ![1024, 20000]⟩
abbrev S800000 : Shape := ⟨1, ![800000]⟩
abbrev S4096 : Shape := ⟨1, ![4096]⟩
abbrev S800000x2 : Shape := ⟨2, ![800000, 2]⟩
abbrev S_ : Shape := ⟨0, ![]⟩

class Facts : Prop where
  bcast_S_S1024x20000 : S_.BroadcastsInDim S1024x20000 (![] : Fin 0 → Fin S1024x20000.rank)
  reducesTo_S1024x20000_S_d0_1 : S1024x20000.ReducesTo [0, 1] S_
  h_S_ : 0 < S_.numel
  bcast_S_S800000 : S_.BroadcastsInDim S800000 (![] : Fin 0 → Fin S800000.rank)
  reducesTo_S800000_S_d0 : S800000.ReducesTo [0] S_
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S1024x20000 .f32) (main_arg1 : FVec F S800000 .f32) (main_arg2 : FVec F S4096 .f32) (main_arg3 : IVec S800000x2 32) : IVec S_ 1 :=
  let main_v0 : FVec F S1024x20000 .f32 := Host.absf main_arg0
  let main_cst : FVec F S_ .f32 := constant S_ .f32 0x7F800000#32
  let main_v1 : FVec F S1024x20000 .f32 := broadcastInDim S1024x20000 ![] bcast_S_S1024x20000 main_cst
  let main_v2 : IVec S1024x20000 1 := cmpf .olt main_v0 main_v1
  let main_c : IVec S_ 1 := constantI S_ 1 1#1
  let main_v3 : IVec S_ 1 := (fun x v => Host.reduce IntOp.andi x v reducesTo_S1024x20000_S_d0_1 h_S_) main_v2 main_c
  let main_v4 : FVec F S800000 .f32 := Host.absf main_arg1
  let main_cst_0 : FVec F S_ .f32 := constant S_ .f32 0x7F800000#32
  let main_v5 : FVec F S800000 .f32 := broadcastInDim S800000 ![] bcast_S_S800000 main_cst_0
  let main_v6 : IVec S800000 1 := cmpf .olt main_v4 main_v5
  let main_c_1 : IVec S_ 1 := constantI S_ 1 1#1
  let main_v7 : IVec S_ 1 := (fun x v => Host.reduce IntOp.andi x v reducesTo_S800000_S_d0 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S1024x20000 : Shape := ⟨2, ![1024, 20000]⟩
abbrev S800000 : Shape := ⟨1, ![800000]⟩
abbrev S4096 : Shape := ⟨1, ![4096]⟩
abbrev S800000x2 : Shape := ⟨2, ![800000, 2]⟩
abbrev S_ : Shape := ⟨0, ![]⟩
abbrev S20000x4096 : Shape := ⟨2, ![20000, 4096]⟩
abbrev S800000x1 : Shape := ⟨2, ![800000, 1]⟩
abbrev S1024x20480 : Shape := ⟨2, ![1024, 20480]⟩
abbrev S20480x4096 : Shape := ⟨2, ![20480, 4096]⟩
abbrev S1x4096 : Shape := ⟨2, ![1, 4096]⟩
abbrev S1024x4096 : Shape := ⟨2, ![1024, 4096]⟩
abbrev S1024x1280 : Shape := ⟨2, ![1024, 1280]⟩
abbrev S1280x1024 : Shape := ⟨2, ![1280, 1024]⟩
abbrev S1x1024 : Shape := ⟨2, ![1, 1024]⟩
abbrev S1024x1024 : Shape := ⟨2, ![1024, 1024]⟩

abbrev nBuf : Space → Nat
  | .hbm => 37
  | .vmem => 9
  | .smem => 0
  | _ => 0

abbrev bufTy : (tb : Table) → Fin (tcTables nBuf tb) → BufTy
  | .hbm, ⟨0, _⟩ => ⟨S1024x20000, .f32⟩
  | .hbm, ⟨1, _⟩ => ⟨S800000, .f32⟩
  | .hbm, ⟨2, _⟩ => ⟨S4096, .f32⟩
  | .hbm, ⟨3, _⟩ => ⟨S800000x2, .i32⟩
  | .hbm, ⟨4, _⟩ => ⟨S_, .f32⟩
  | .hbm, ⟨5, _⟩ => ⟨S20000x4096, .f32⟩
  | .hbm, ⟨6, _⟩ => ⟨S800000x1, .i32⟩
  | .hbm, ⟨7, _⟩ => ⟨S800000, .i32⟩
  | .hbm, ⟨8, _⟩ => ⟨S800000x1, .i32⟩
  | .hbm, ⟨9, _⟩ => ⟨S800000, .i32⟩
  | .hbm, ⟨10, _⟩ => ⟨S_, .i32⟩
  | .hbm, ⟨11, _⟩ => ⟨S800000, .i32⟩
  | .hbm, ⟨12, _⟩ => ⟨S800000, .i1⟩
  | .hbm, ⟨13, _⟩ => ⟨S_, .i32⟩
  | .hbm, ⟨14, _⟩ => ⟨S800000, .i32⟩
  | .hbm, ⟨15, _⟩ => ⟨S800000, .i32⟩
  | .hbm, ⟨16, _⟩ => ⟨S800000, .i32⟩
  | .hbm, ⟨17, _⟩ => ⟨S_, .i32⟩
  | .hbm, ⟨18, _⟩ => ⟨S800000, .i32⟩
  | .hbm, ⟨19, _⟩ => ⟨S800000, .i1⟩
  | .hbm, ⟨20, _⟩ => ⟨S_, .i32⟩
  | .hbm, ⟨21, _⟩ => ⟨S800000, .i32⟩
  | .hbm, ⟨22, _⟩ => ⟨S800000, .i32⟩
  | .hbm, ⟨23, _⟩ => ⟨S800000, .i32⟩
  | .hbm, ⟨24, _⟩ => ⟨S800000x1, .i32⟩
  | .hbm, ⟨25, _⟩ => ⟨S800000x1, .i32⟩
  | .hbm, ⟨26, _⟩ => ⟨S800000x2, .i32⟩
  | .hbm, ⟨27, _⟩ => ⟨S20000x4096, .f32⟩
  | .hbm, ⟨28, _⟩ => ⟨S_, .i32⟩
  | .hbm, ⟨29, _⟩ => ⟨S_, .f32⟩
  | .hbm, ⟨30, _⟩ => ⟨S1024x20480, .f32⟩
  | .hbm, ⟨31, _⟩ => ⟨S_, .i32⟩
  | .hbm, ⟨32, _⟩ => ⟨S_, .f32⟩
  | .hbm, ⟨33, _⟩ => ⟨S20480x4096, .f32⟩
  | .hbm, ⟨34, _⟩ => ⟨S1024x20480, .bf16⟩
  | .hbm, ⟨35, _⟩ => ⟨S1x4096, .f32⟩
  | .hbm, ⟨36, _⟩ => ⟨S1024x4096, .f32⟩
  | .local _ .vmem, ⟨0, _⟩ => ⟨S1024x1280, .bf16⟩
  | .local _ .vmem, ⟨1, _⟩ => ⟨S1024x1280, .bf16⟩
  | .local _ .vmem, ⟨2, _⟩ => ⟨S1280x1024, .f32⟩
  | .local _ .vmem, ⟨3, _⟩ => ⟨S1280x1024, .f32⟩
  | .local _ .vmem, ⟨4, _⟩ => ⟨S1x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S1024x20000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c : Ref sig .tc := ⟨.hbm, 10, rfl⟩
abbrev main_v5 : Ref sig .tc := ⟨.hbm, 11, rfl⟩
abbrev main_v6 : Ref sig .tc := ⟨.hbm, 12, rfl⟩
abbrev main_c_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_c_1 : Ref sig .tc := ⟨.hbm, 17, rfl⟩
abbrev main_v10 : Ref sig .tc := ⟨.hbm, 18, rfl⟩
abbrev main_v11 : Ref sig .tc := ⟨.hbm, 19, rfl⟩
abbrev main_c_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_c_3 : Ref sig .tc := ⟨.hbm, 28, rfl⟩
abbrev main_call0_v0 : Ref sig .tc := ⟨.hbm, 29, rfl⟩
abbrev main_v19 : Ref sig .tc := ⟨.hbm, 30, rfl⟩
abbrev main_c_4 : Ref sig .tc := ⟨.hbm, 31, rfl⟩
abbrev main_call1_v0 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 16], ![false, false]⟩

def k0_cond2 (i : grid0.Coords) : BitVec 1 :=
  let arg1 : BitVec 32 := BitVec.ofNat 32 (i 1).val
  let c15_i32 : BitVec 32 := 15#32
  let v14 : BitVec 1 := Scalar.cmpi .eq arg1 c15_i32
  let v15 : BitVec 32 := Scalar.extui v14
  let c0_i32_8 : BitVec 32 := 0#32
  let v16 : BitVec 1 := Scalar.cmpi .ne v15 c0_i32_8
  v16

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1024x1280 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1280x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  bcast_S_S20000x4096 : S_.BroadcastsInDim S20000x4096 (![] : Fin 0 → Fin S20000x4096.rank)
  slices_S800000x2_S800000x1_0_0 : S800000x2.Slices ![0, 0] S800000x1
  shapeCasts_S800000x1_S800000 : S800000x1.ShapeCasts S800000
  slices_S800000x2_S800000x1_0_1 : S800000x2.Slices ![0, 1] S800000x1
  bcast_S_S800000 : S_.BroadcastsInDim S800000 (![] : Fin 0 → Fin S800000.rank)
  bcast_S800000_S800000x1_0 : S800000.BroadcastsInDim S800000x1 (![0] : Fin 1 → Fin S800000x1.rank)
  concatenates_S800000x1_S800000x1_S800000x2_d1 : Shape.Concatenates [S800000x1, S800000x1] S800000x2 1
  pads_S1024x20000_S1024x20480_000_04800 : S1024x20000.Pads (![0, 0] : Fin 2 → Nat) ![0, 480] ![0, 0] S1024x20480
  h_S_ : 0 < S_.numel
  pads_S20000x4096_S20480x4096_04800_000 : S20000x4096.Pads (![0, 0] : Fin 2 → Nat) ![480, 0] ![0, 0] S20480x4096
  bitsLt_bf16_f32 : FTy.bits .bf16 < FTy.bits .f32
  shapeCasts_S4096_S1x4096 : S4096.ShapeCasts S1x4096
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x1280_S1024x1280_0_0 : ∀ a, (![0, 0] : Fin 2 → Nat) a + S1024x1280.size a ≤ S1024x1280.size a
  h_S1024x1280 : 0 < S1024x1280.numel
  shapeCasts_S1024x1280_S1024x1280 : S1024x1280.ShapeCasts S1024x1280
  inb_S1280x1024_S1280x1024_0_0 : ∀ a, (![0, 0] : Fin 2 → Nat) a + S1280x1024.size a ≤ S1280x1024.size a
  h_S1280x1024 : 0 < S1280x1024.numel
  shapeCasts_S1280x1024_S1280x1024 : S1280x1024.ShapeCasts S1280x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  scatter_S20000x4096_S800000x2_S800000_n_01_01_1_wf : ScatterDims.WF S20000x4096 S800000x2 S800000 [] [0, 1] [0, 1] 1
  dot_S1024x1280_S1280x1024_S1024x1024_1_0_0_1_n_n_wf : DotDims.WF S1024x1280 S1280x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1280.size a ≤ S1024x20480.size a
  hwx0_0 : ∀ i : grid0.Coords, EltTy.bits .bf16 = 32 ∨ (Rect.block (s := S1024x20480) S1024x1280.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1280x1024.size a ≤ S20480x4096.size a
  hwx0_1 : ∀ i : grid0.Coords, EltTy.bits .f32 = 32 ∨ (Rect.block (s := S20480x4096) S1280x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x4096.size a
  hwx0_2 : ∀ i : grid0.Coords, EltTy.bits .f32 = 32 ∨ (Rect.block (s := S1x4096) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x4096.size a
  hwx0_3 : ∀ i : grid0.Coords, EltTy.bits .f32 = 32 ∨ (Rect.block (s := S1024x4096) S1024x1024.size (cc0_transform_3 i) (hinb0_3 i)).WholeWords (EltTy.packing .f32)

variable [Facts₀]

def scatter_S20000x4096_S800000x2_S800000_n_01_01_1 : ScatterDims S20000x4096 S800000x2 S800000 where
  updateWindowDims := []
  insertedWindowDims := [0, 1]
  scatterDimsToOperandDims := [0, 1]
  indexVectorDim := 1
  wf := scatter_S20000x4096_S800000x2_S800000_n_01_01_1_wf
def dot_S1024x1280_S1280x1024_S1024x1024_1_0_0_1_n_n : DotDims S1024x1280 S1280x1024 S1024x1024 where
  lhsContracting := [1]
  rhsContracting := [0]
  lhsNonContracting := [0]
  rhsNonContracting := [1]
  lhsBatch := []
  rhsBatch := []
  wf := dot_S1024x1280_S1280x1024_S1024x1024_1_0_0_1_n_n_wf

abbrev win0_0 : Pipeline.Window sig grid0 :=
  Pipeline.Window.ofSpec (Memref.whole main_v21) S1024x1280.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v20) S1280x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v22) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v23) S1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S1024x20000 : Shape := ⟨2, ![1024, 20000]⟩
abbrev S800000 : Shape := ⟨1, ![800000]⟩
abbrev S4096 : Shape := ⟨1, ![4096]⟩
abbrev S800000x2 : Shape := ⟨2, ![800000, 2]⟩
abbrev S_ : Shape := ⟨0, ![]⟩
abbrev S20000x4096 : Shape := ⟨2, ![20000, 4096]⟩
abbrev S800000x1 : Shape := ⟨2, ![800000, 1]⟩
abbrev S1024x4096 : Shape := ⟨2, ![1024, 4096]⟩
abbrev S1x4096 : Shape := ⟨2, ![1, 4096]⟩

abbrev nBuf : Space → Nat
  | .hbm => 33
  | .vmem => 0
  | .smem => 0
  | _ => 0

abbrev bufTy : (tb : Table) → Fin (tcTables nBuf tb) → BufTy
  | .hbm, ⟨0, _⟩ => ⟨S1024x20000, .f32⟩
  | .hbm, ⟨1, _⟩ => ⟨S800000, .f32⟩
  | .hbm, ⟨2, _⟩ => ⟨S4096, .f32⟩
  | .hbm, ⟨3, _⟩ => ⟨S800000x2, .i32⟩
  | .hbm, ⟨4, _⟩ => ⟨S_, .f32⟩
  | .hbm, ⟨5, _⟩ => ⟨S20000x4096, .f32⟩
  | .hbm, ⟨6, _⟩ => ⟨S800000x1, .i32⟩
  | .hbm, ⟨7, _⟩ => ⟨S800000, .i32⟩
  | .hbm, ⟨8, _⟩ => ⟨S800000x1, .i32⟩
  | .hbm, ⟨9, _⟩ => ⟨S800000, .i32⟩
  | .hbm, ⟨10, _⟩ => ⟨S_, .i32⟩
  | .hbm, ⟨11, _⟩ => ⟨S800000, .i32⟩
  | .hbm, ⟨12, _⟩ => ⟨S800000, .i1⟩
  | .hbm, ⟨13, _⟩ => ⟨S_, .i32⟩
  | .hbm, ⟨14, _⟩ => ⟨S800000, .i32⟩
  | .hbm, ⟨15, _⟩ => ⟨S800000, .i32⟩
  | .hbm, ⟨16, _⟩ => ⟨S800000, .i32⟩
  | .hbm, ⟨17, _⟩ => ⟨S_, .i32⟩
  | .hbm, ⟨18, _⟩ => ⟨S800000, .i32⟩
  | .hbm, ⟨19, _⟩ => ⟨S800000, .i1⟩
  | .hbm, ⟨20, _⟩ => ⟨S_, .i32⟩
  | .hbm, ⟨21, _⟩ => ⟨S800000, .i32⟩
  | .hbm, ⟨22, _⟩ => ⟨S800000, .i32⟩
  | .hbm, ⟨23, _⟩ => ⟨S800000, .i32⟩
  | .hbm, ⟨24, _⟩ => ⟨S800000x1, .i32⟩
  | .hbm, ⟨25, _⟩ => ⟨S800000x1, .i32⟩
  | .hbm, ⟨26, _⟩ => ⟨S800000x2, .i32⟩
  | .hbm, ⟨27, _⟩ => ⟨S20000x4096, .f32⟩
  | .hbm, ⟨28, _⟩ => ⟨S1024x4096, .f32⟩
  | .hbm, ⟨29, _⟩ => ⟨S1x4096, .f32⟩
  | .hbm, ⟨30, _⟩ => ⟨S1024x4096, .f32⟩
  | .hbm, ⟨31, _⟩ => ⟨S1024x4096, .f32⟩
  | .hbm, ⟨32, _⟩ => ⟨S1024x4096, .f32⟩
  | _, _ => ⟨S1024x20000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c : Ref sig .tc := ⟨.hbm, 10, rfl⟩
abbrev main_v5 : Ref sig .tc := ⟨.hbm, 11, rfl⟩
abbrev main_v6 : Ref sig .tc := ⟨.hbm, 12, rfl⟩
abbrev main_c_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_c_1 : Ref sig .tc := ⟨.hbm, 17, rfl⟩
abbrev main_v10 : Ref sig .tc := ⟨.hbm, 18, rfl⟩
abbrev main_v11 : Ref sig .tc := ⟨.hbm, 19, rfl⟩
abbrev main_c_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩

abbrev nD : Nat := 1
abbrev τ : Topo := Topo.v7x

variable {F : FTy → Type} [FloatOps F]

class Facts₀ : Prop where
  bcast_S_S20000x4096 : S_.BroadcastsInDim S20000x4096 (![] : Fin 0 → Fin S20000x4096.rank)
  slices_S800000x2_S800000x1_0_0 : S800000x2.Slices ![0, 0] S800000x1
  shapeCasts_S800000x1_S800000 : S800000x1.ShapeCasts S800000
  slices_S800000x2_S800000x1_0_1 : S800000x2.Slices ![0, 1] S800000x1
  bcast_S_S800000 : S_.BroadcastsInDim S800000 (![] : Fin 0 → Fin S800000.rank)
  bcast_S800000_S800000x1_0 : S800000.BroadcastsInDim S800000x1 (![0] : Fin 1 → Fin S800000x1.rank)
  concatenates_S800000x1_S800000x1_S800000x2_d1 : Shape.Concatenates [S800000x1, S800000x1] S800000x2 1
  bcast_S4096_S1x4096_1 : S4096.BroadcastsInDim S1x4096 (![1] : Fin 1 → Fin S1x4096.rank)
  bcast_S1x4096_S1024x4096_0_1 : S1x4096.BroadcastsInDim S1024x4096 (![0, 1] : Fin 2 → Fin S1024x4096.rank)
  scatter_S20000x4096_S800000x2_S800000_n_01_01_1_wf : ScatterDims.WF S20000x4096 S800000x2 S800000 [] [0, 1] [0, 1] 1
  dot_S1024x20000_S20000x4096_S1024x4096_1_0_0_1_n_n_wf : DotDims.WF S1024x20000 S20000x4096 S1024x4096 [1] [0] [0] [1] [] []

variable [Facts₀]

def scatter_S20000x4096_S800000x2_S800000_n_01_01_1 : ScatterDims S20000x4096 S800000x2 S800000 where
  updateWindowDims := []
  insertedWindowDims := [0, 1]
  scatterDimsToOperandDims := [0, 1]
  indexVectorDim := 1
  wf := scatter_S20000x4096_S800000x2_S800000_n_01_01_1_wf
def dot_S1024x20000_S20000x4096_S1024x4096_1_0_0_1_n_n : DotDims S1024x20000 S20000x4096 S1024x4096 where
  lhsContracting := [1]
  rhsContracting := [0]
  lhsNonContracting := [0]
  rhsNonContracting := [1]
  lhsBatch := []
  rhsBatch := []
  wf := dot_S1024x20000_S20000x4096_S1024x4096_1_0_0_1_n_n_wf

class Facts : Prop extends Facts₀ where

variable [Facts]
-- ==== Proof.Pieces.lean ====
/-
  What one grid step of the kernel leaves behind, as pure functions of what it loaded.

  The grid is (column tile j, contraction step k). Every step loads a [1024, 1280] block of the left matrix, a
  [1280, 1024] block of the right matrix and the accumulator, and stores accumulator + block product back. The first
  step (k = 0) zeroes the accumulator beforehand; the last (k = 15) also stores tanh(accumulator + bias row) to the output
  block. Each statement below says that the contents a step's stores leave in a buffer are the corresponding arithmetic
  term of the step's loads, for any float instance.
-/
import proofs.«116346_j88691074662715_1_alg».proof.Proof.Gen.KernelIdeal.Frame
import Idealize.ShloMosaic.Lib.Pipeline.Value
import Idealize.ShloMosaic.Lib.Tactic

set_option maxRecDepth 16384

noncomputable section

namespace Cert.KernelIdeal.Pieces

open Cert.KernelIdeal Cert.KernelIdeal.Gen Idealize.ShloMosaic Idealize.ShloMosaic.TcCoe Idealize.ShloMosaic.Tactic Idealize.SL.Sem

variable {F : FTy → Type} [FloatOps F]

/-- The offsets of every access of this body: the origin. -/
theorem zero_offsets : (![0, 0] : Fin 2 → Nat) = fun _ => 0 := by funext a; fin_cases a <;> rfl

/-- At the first step of a run over the contraction axis the accumulator is stored twice whole, first with zeros and
    then with the zeros plus this step's block product: it ends holding the latter. -/
theorem acc_first (c : Dev nD) (i : grid0.Coords) (arg2 : Memref sig .tc .vmem S1024x1280 .bf16) (harg2 : arg2.IsWhole) (arg3 : Memref sig .tc .vmem S1280x1024 .f32) (harg3 : arg3.IsWhole) (arg4 : Memref sig .tc .vmem S1x1024 .f32) (harg4 : arg4.IsWhole) (arg5 : Memref sig .tc .vmem S1024x1024 .f32) (harg5 : arg5.IsWhole) (arg6 : Memref sig .tc .vmem S1024x1024 .f32) (harg6 : arg6.IsWhole) (hc0 : cond0_0 i) (hc1 : ¬cond0_1 i)
    (x0 : Vec F S1024x1280 .bf16) (x1 : Vec F S1280x1024 .f32) (x2 : Vec F S1x1024 .f32) :
    sout0_A_0 c i arg2 harg2 arg3 harg3 arg4 harg4 arg5 harg5 arg6 harg6 hc0 hc1 x0 x1 x2 = k0_pay2 x0 x1 (k0_pay1 (F := F)) := by
  unfold sout0_A_0
  rw [View.read_writes_eq_canon _ _ _ (scover0_A_0 c i arg2 harg2 arg3 harg3 arg4 harg4 arg5 harg5 arg6 harg6 hc0 hc1 x0 x1 x2)]
  unfold kernelRun0_A
  dsimp only
  sl_unfold_words
  rw [View.canon_cons_unit_zero (S := S1024x1024) zero_offsets]
  simp only [View.readAt_eq_ld, harg2.read_unread, harg3.read_unread, harg4.read_unread, harg6.read_unread,
    View.ld_unit_zero (S := S1024x1280) zero_offsets, View.ld_unit_zero (S := S1280x1024) zero_offsets,
    View.ld_unit_zero (S := S1x1024) zero_offsets, View.ld_unit_zero (S := S1024x1024) zero_offsets,
    View.readCov_unit_zero (S := S1024x1024) _ zero_offsets]

/-- At a middle step the accumulator is stored once whole: what the step before left plus this step's block product. -/
theorem acc_middle (c : Dev nD) (i : grid0.Coords) (arg2 : Memref sig .tc .vmem S1024x1280 .bf16) (harg2 : arg2.IsWhole) (arg3 : Memref sig .tc .vmem S1280x1024 .f32) (harg3 : arg3.IsWhole) (arg4 : Memref sig .tc .vmem S1x1024 .f32) (harg4 : arg4.IsWhole) (arg5 : Memref sig .tc .vmem S1024x1024 .f32) (harg5 : arg5.IsWhole) (arg6 : Memref sig .tc .vmem S1024x1024 .f32) (harg6 : arg6.IsWhole) (hc0 : ¬cond0_0 i) (hc1 : ¬cond0_1 i)
    (x0 : Vec F S1024x1280 .bf16) (x1 : Vec F S1280x1024 .f32) (x2 : Vec F S1x1024 .f32) (xs0 : Vec F S1024x1024 .f32) :
    sout0_B_0 c i arg2 harg2 arg3 harg3 arg4 harg4 arg5 harg5 arg6 harg6 hc0 hc1 x0 x1 x2 xs0 = k0_pay2 x0 x1 xs0 := by
  unfold sout0_B_0
  rw [View.read_writes_eq_canon _ _ _ (scover0_B_0 c i arg2 harg2 arg3 harg3 arg4 harg4 arg5 harg5 arg6 harg6 hc0 hc1 x0 x1 x2 xs0)]
  unfold kernelRun0_B
  dsimp only
  sl_unfold_words
  rw [View.canon_unit_zero (S := S1024x1024) zero_offsets]
  simp only [View.readAt_eq_ld, harg2.read_unread, harg3.read_unread, harg4.read_unread, harg6.read_unread,
    View.ld_unit_zero (S := S1024x1280) zero_offsets, View.ld_unit_zero (S := S1280x1024) zero_offsets,
    View.ld_unit_zero (S := S1x1024) zero_offsets, View.ld_unit_zero (S := S1024x1024) zero_offsets,
    View.readCov_unit_zero (S := S1024x1024) _ zero_offsets]

/-- At the last step the accumulator is stored once whole in the same way … -/
theorem acc_last (c : Dev nD) (i : grid0.Coords) (arg2 : Memref sig .tc .vmem S1024x1280 .bf16) (harg2 : arg2.IsWhole) (arg3 : Memref sig .tc .vmem S1280x1024 .f32) (harg3 : arg3.IsWhole) (arg4 : Memref sig .tc .vmem S1x1024 .f32) (harg4 : arg4.IsWhole) (arg5 : Memref sig .tc .vmem S1024x1024 .f32) (harg5 : arg5.IsWhole) (arg6 : Memref sig .tc .vmem S1024x1024 .f32) (harg6 : arg6.IsWhole) (hc0 : ¬cond0_0 i) (hc1 : cond0_1 i)
    (x0 : Vec F S1024x1280 .bf16) (x1 : Vec F S1280x1024 .f32) (x2 : Vec F S1x1024 .f32) (xs0 : Vec F S1024x1024 .f32) :
    sout0_C_0 c i arg2 harg2 arg3 harg3 arg4 harg4 arg5 harg5 arg6 harg6 hc0 hc1 x0 x1 x2 xs0 = k0_pay2 x0 x1 xs0 := by
  unfold sout0_C_0
  rw [View.read_writes_eq_canon _ _ _ (scover0_C_0 c i arg2 harg2 arg3 harg3 arg4 harg4 arg5 harg5 arg6 harg6 hc0 hc1 x0 x1 x2 xs0)]
  unfold kernelRun0_C
  dsimp only
  sl_unfold_words
  rw [View.canon_unit_zero (S := S1024x1024) zero_offsets]
  simp only [View.readAt_eq_ld, harg2.read_unread, harg3.read_unread, harg4.read_unread, harg6.read_unread,
    View.ld_unit_zero (S := S1024x1280) zero_offsets, View.ld_unit_zero (S := S1280x1024) zero_offsets,
    View.ld_unit_zero (S := S1x1024) zero_offsets, View.ld_unit_zero (S := S1024x1024) zero_offsets,
    View.readCov_unit_zero (S := S1024x1024) _ zero_offsets]

/-- … and the output block is stored once whole: the hyperbolic tangent of that final accumulator plus the bias row. -/
theorem out_last (c : Dev nD) (i : grid0.Coords) (arg2 : Memref sig .tc .vmem S1024x1280 .bf16) (harg2 : arg2.IsWhole) (arg3 : Memref sig .tc .vmem S1280x1024 .f32) (harg3 : arg3.IsWhole) (arg4 : Memref sig .tc .vmem S1x1024 .f32) (harg4 : arg4.IsWhole) (arg5 : Memref sig .tc .vmem S1024x1024 .f32) (harg5 : arg5.IsWhole) (arg6 : Memref sig .tc .vmem S1024x1024 .f32) (harg6 : arg6.IsWhole) (hc0 : ¬cond0_0 i) (hc1 : cond0_1 i)
    (x0 : Vec F S1024x1280 .bf16) (x1 : Vec F S1280x1024 .f32) (x2 : Vec F S1x1024 .f32) (xs0 : Vec F S1024x1024 .f32) :
    out0_C_3 c i arg2 harg2 arg3 harg3 arg4 harg4 arg5 harg5 arg6 harg6 hc0 hc1 x0 x1 x2 xs0 = k0_pay3 x2 (k0_pay2 x0 x1 xs0) := by
  unfold out0_C_3
  rw [View.read_writes_eq_canon _ _ _ (cover0_C_3 c i arg2 harg2 arg3 harg3 arg4 harg4 arg5 harg5 arg6 harg6 hc0 hc1 x0 x1 x2 xs0)]
  unfold kernelRun0_C
  dsimp only
  sl_unfold_words
  rw [View.canon_unit_zero (S := S1024x1024) zero_offsets]
  simp only [View.readAt_eq_ld, harg2.read_unread, harg3.read_unread, harg4.read_unread, harg6.read_unread,
    View.ld_unit_zero (S := S1024x1280) zero_offsets, View.ld_unit_zero (S := S1280x1024) zero_offsets,
    View.ld_unit_zero (S := S1x1024) zero_offsets, View.ld_unit_zero (S := S1024x1024) zero_offsets,
    View.readCov_unit_zero (S := S1024x1024) _ zero_offsets]

end Cert.KernelIdeal.Pieces

end
-- ==== Proof.LibPlainMatmul.lean ====
/-
  A general fact about the ideal reading of a matrix product, independent of any program: a kernel's matrix product of an
  m×k by a k×n matrix (no batch axis; the left operand's columns contracted with the right operand's rows) into a zero
  accumulator, read at the entry (a, b), is the textbook sum  Σ_c A(a, c) · B(c, b)  on the extended reals.
  (The host's `dot_general` of the same shape has this reading in the library already; this is its twin for the kernel's
  accumulate-into-zero form.)
-/
import Idealize.ShloMosaic.PureOps.Ideal.Laws
import Idealize.ShloMosaic.Lib.ValueIdx

noncomputable section

namespace Idealize.ShloMosaic.LibPlainMatmul

open Idealize.ShloMosaic Idealize.ShloMosaic.ValueIdx

/-- The plain product of an m×k by a k×n matrix accumulated into the f32 zero splat, at the ideal values and at the
    entry (a, b): the sum over the contracted coordinate c of A(a, c) · B(c, b). -/
theorem matmul_plain_zero_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    matmul (DotDims.plain m k n) prec A B (constant (⟨2, ![m, n]⟩ : Shape) .f32 0x00000000#32) (ix2 a b)
      = ∑ c : Fin k, A (ix2 a c) * B (ix2 c b) := by
  show FloatOps.matmul (DotDims.plain m k n) prec A B (constant (⟨2, ![m, n]⟩ : Shape) .f32 0x00000000#32) (ix2 a b) = _
  rw [Ideal.matmul_constant_zero_apply, ← Equiv.sum_comp (contrEquiv1 (DotDims.plain m k n) k rfl rfl).symm]
  refine Finset.sum_congr rfl fun c _ => ?_
  have hc := contrEquiv1_symm_val (DotDims.plain m k n) k rfl rfl c
  -- the left operand is read at (a, c): its row is the output's row, its column the contracted coordinate
  have hl : (DotDims.plain m k n).lhsIdx (ix2 a b) ((contrEquiv1 _ k rfl rfl).symm c) = ix2 a c := by
    funext ax; apply Fin.ext
    match ax with
    | ⟨0, _⟩ => simp [DotDims.lhsIdx, DotDims.plain]; rfl
    | ⟨1, _⟩ => simp [DotDims.lhsIdx, DotDims.plain]; exact hc
  -- the right operand at (c, b): its row the contracted coordinate, its column the output's column
  have hr : (DotDims.plain m k n).rhsIdx (ix2 a b) ((contrEquiv1 _ k rfl rfl).symm c) = ix2 c b := by
    funext ax; apply Fin.ext
    match ax with
    | ⟨0, _⟩ => simp [DotDims.rhsIdx, DotDims.plain]; exact hc
    | ⟨1, _⟩ => simp [DotDims.rhsIdx, DotDims.plain]; rfl
  rw [hl, hr]

end Idealize.ShloMosaic.LibPlainMatmul

end
-- ==== Proof.Payload.lean ====
/-
  The step's arithmetic read entry by entry on the extended reals.

  * The zero fill is 0 at every entry.
  * The accumulation: entry (r, c) of  acc + X·W  is  acc(r, c) + Σ_q X(r, q) · W(q, c), the sum over the 1280
    positions of the block's contraction axis (narrowing W to bf16 changes nothing on the extended reals).
  * The epilogue: entry (r, c) of  tanh(acc + bias row)  is  tanh(acc(r, c) + bias(0, c)).
-/
import proofs.«116346_j88691074662715_1_alg».proof.Proof.Gen.KernelIdeal.Skeleton
import proofs.«116346_j88691074662715_1_alg».proof.Proof.LibPlainMatmul
import Idealize.ShloMosaic.Lib.Pipeline.Value
import Idealize.ShloMosaic.Lib.ValueIdx
import Idealize.ShloMosaic.PureOps.Ideal.Laws

noncomputable section

open scoped BigOperators

namespace Cert.KernelIdeal.Payload

open Cert.KernelIdeal Cert.KernelIdeal.Gen Idealize.ShloMosaic Idealize.ShloMosaic.ValueIdx

/-- The block product's dimension numbers are the plain ones: rows by contraction times contraction by columns. -/
theorem dims_plain : dot_S1024x1280_S1280x1024_S1024x1024_1_0_0_1_n_n = DotDims.plain 1024 1280 1024 := rfl

/-- The zero fill. -/
theorem zero_fill (j : S1024x1024.Idx) : k0_pay1 (F := Ideal) j = 0 := by
  unfold k0_pay1
  rw [shapeCast_self]
  exact Ideal.ofBits_zero_f32

/-- One accumulation step at an entry. -/
theorem accumulate (x0 : Vec Ideal S1024x1280 .bf16) (x1 : Vec Ideal S1280x1024 .f32) (acc : Vec Ideal S1024x1024 .f32)
    (r c : Fin 1024) :
    k0_pay2 x0 x1 acc (ix2 r c) = acc (ix2 r c) + ∑ q : Fin 1280, x0 (ix2 r q) * x1 (ix2 q c) := by
  unfold k0_pay2
  simp only [shapeCast_self]
  rw [dims_plain]
  show acc (ix2 r c) + _ = _
  rw [Idealize.ShloMosaic.LibPlainMatmul.matmul_plain_zero_apply]
  rfl

/-- The epilogue at an entry. -/
theorem epilogue (x2 : Vec Ideal S1x1024 .f32) (acc : Vec Ideal S1024x1024 .f32) (r c : Fin 1024) :
    k0_pay3 x2 acc (ix2 r c) = Ideal.tanh (acc (ix2 r c) + x2 (ix2 (0 : Fin 1) c)) := by
  unfold k0_pay3
  simp only [shapeCast_self]
  show Ideal.tanh (acc (ix2 r c) + broadcastTo S1024x1024 x2 broadcasts_S1x1024_S1024x1024 (ix2 r c)) = _
  rw [broadcastTo_apply x2 broadcasts_S1x1024_S1024x1024 (ix2 r c) (ix2 (0 : Fin 1) c) (fun a => by
    match a with
    | ⟨0, _⟩ => rfl
    | ⟨1, _⟩ => rfl)]

end Cert.KernelIdeal.Payload

end
-- ==== Proof.Blocks.lean ====
/-
  Which entries of the region's arrays a grid step's blocks hold.

  Grid step t is (column tile t / 16, contraction step t % 16). Its left block is columns (t % 16)·1280 … +1279 of the
  padded [1024, 20480] left matrix; its right block is rows (t % 16)·1280 … and columns (t / 16)·1024 … of the padded
  [20480, 4096] right matrix; its bias block is columns (t / 16)·1024 … of the [1, 4096] bias row.
-/
import proofs.«116346_j88691074662715_1_alg».proof.Proof.Gen.KernelIdeal.Frame
import Idealize.ShloMosaic.Lib.Pipeline.Value
import Idealize.ShloMosaic.Lib.ValueIdx

noncomputable section

namespace Cert.KernelIdeal.Blocks

open Cert.KernelIdeal Cert.KernelIdeal.Gen Idealize.ShloMosaic Idealize.ShloMosaic.TcCoe Idealize.SL.Sem Idealize.ShloMosaic.ValueIdx

variable {F : FTy → Type} [FloatOps F]
variable (m : (ℓ : Loc nD τ sig) → Buf (Elt F) ℓ)

/-- The four index maps at step t, decided over the 64 steps. -/
theorem lhs_index : ∀ t : Fin cfg0.N, win0_0.index t 0 = 0 ∧ win0_0.index t 1 = t.val % 16 :=
  (by decide +kernel : ∀ t : Fin grid0.N, win0_0.index t 0 = 0 ∧ win0_0.index t 1 = t.val % 16)
theorem rhs_index : ∀ t : Fin cfg0.N, win0_1.index t 0 = t.val % 16 ∧ win0_1.index t 1 = t.val / 16 :=
  (by decide +kernel : ∀ t : Fin grid0.N, win0_1.index t 0 = t.val % 16 ∧ win0_1.index t 1 = t.val / 16)
theorem bias_index : ∀ t : Fin cfg0.N, win0_2.index t 0 = 0 ∧ win0_2.index t 1 = t.val / 16 :=
  (by decide +kernel : ∀ t : Fin grid0.N, win0_2.index t 0 = 0 ∧ win0_2.index t 1 = t.val / 16)
theorem out_index : ∀ t : Fin cfg0.N, win0_3.index t 0 = 0 ∧ win0_3.index t 1 = t.val / 16 :=
  (by decide +kernel : ∀ t : Fin grid0.N, win0_3.index t 0 = 0 ∧ win0_3.index t 1 = t.val / 16)

theorem step_lt (t : Fin cfg0.N) : t.val < 64 := lt_of_lt_of_eq t.isLt N_0

/-- Entry (r, q) of step t's left block. -/
theorem lhs_block (c : Dev nD) (t : Fin cfg0.N) (r : Fin 1024) (q : Fin 1280) :
    (iblk m c 0 t : Vec F S1024x1280 .bf16) (ix2 r q)
      = (V m c main_v21 : S1024x20480.Idx → Elt F .bf16) (ix2 r ⟨t.val % 16 * 1280 + q.val, by have := q.isLt; omega⟩) := by
  have hi := lhs_index t
  unfold iblk
  rw [View.read_apply]
  show V m c main_v21 _ = V m c main_v21 _
  congr 1
  funext a
  apply Fin.ext
  match a with
  | ⟨0, _⟩ => show win0_0.index t 0 * 1024 + 1 * r.val = r.val; rw [hi.1]; omega
  | ⟨1, _⟩ => show win0_0.index t 1 * 1280 + 1 * q.val = t.val % 16 * 1280 + q.val; rw [hi.2]; omega

/-- Entry (q, c') of step t's right block. -/
theorem rhs_block (c : Dev nD) (t : Fin cfg0.N) (q : Fin 1280) (c' : Fin 1024) :
    (iblk m c 1 t : Vec F S1280x1024 .f32) (ix2 q c')
      = (V m c main_v20 : S20480x4096.Idx → Elt F .f32)
          (ix2 ⟨t.val % 16 * 1280 + q.val, by have := q.isLt; omega⟩ ⟨t.val / 16 * 1024 + c'.val, by have := c'.isLt; have := step_lt t; omega⟩) := by
  have hi := rhs_index t
  unfold iblk
  rw [View.read_apply]
  show V m c main_v20 _ = V m c main_v20 _
  congr 1
  funext a
  apply Fin.ext
  match a with
  | ⟨0, _⟩ => show win0_1.index t 0 * 1280 + 1 * q.val = t.val % 16 * 1280 + q.val; rw [hi.1]; omega
  | ⟨1, _⟩ => show win0_1.index t 1 * 1024 + 1 * c'.val = t.val / 16 * 1024 + c'.val; rw [hi.2]; omega

/-- Entry (0, c') of step t's bias block. -/
theorem bias_block (c : Dev nD) (t : Fin cfg0.N) (c' : Fin 1024) :
    (iblk m c 2 t : Vec F S1x1024 .f32) (ix2 (0 : Fin 1) c')
      = (V m c main_v22 : S1x4096.Idx → Elt F .f32) (ix2 (0 : Fin 1) ⟨t.val / 16 * 1024 + c'.val, by have := c'.isLt; have := step_lt t; omega⟩) := by
  have hi := bias_index t
  unfold iblk
  rw [View.read_apply]
  show V m c main_v22 _ = V m c main_v22 _
  congr 1
  funext a
  apply Fin.ext
  match a with
  | ⟨0, _⟩ => show win0_2.index t 0 * 1 + 1 * 0 = 0; rw [hi.1]
  | ⟨1, _⟩ => show win0_2.index t 1 * 1024 + 1 * c'.val = t.val / 16 * 1024 + c'.val; rw [hi.2]; omega

end Cert.KernelIdeal.Blocks

end
-- ==== Proof.LibPaddedSums.lean ====
/-
  Reading a matrix at natural-number coordinates, and the two facts about sums that join a contraction taken in
  blocks over a zero-padded axis to the contraction over the unpadded axis.

  * `at2 v a b`: entry (a, b) of the matrix `v` for natural numbers a and b, and 0 outside the matrix. Indexing by
    naturals lets "row q of block s" be written `s * B + q` with no bound to carry.
  * `sum_by_blocks`: a sum over the first n·B naturals is the sum over n blocks of B consecutive naturals
    (associativity and commutativity of + only, so it holds in the extended reals).
  * `sum_padded`: if every term from position n on is 0, the sum over the first n + p naturals is the sum over the
    first n.
-/
import Idealize.ShloMosaic.Lib.ValueIdx
import Idealize.ShloMosaic.PureOps.Ideal

noncomputable section

open scoped BigOperators

namespace Cert.PaddedSums

open Idealize.ShloMosaic Idealize.ShloMosaic.ValueIdx

/-- Entry (a, b) of a matrix of extended reals, for natural a and b; 0 outside the matrix. -/
def at2 {A B : Nat} (v : (⟨2, ![A, B]⟩ : Shape).Idx → EReal) (a b : Nat) : EReal :=
  if h : a < A ∧ b < B then v (ix2 ⟨a, h.1⟩ ⟨b, h.2⟩) else 0

theorem at2_of_lt {A B : Nat} (v : (⟨2, ![A, B]⟩ : Shape).Idx → EReal) {a b : Nat} (ha : a < A) (hb : b < B) :
    at2 v a b = v (ix2 ⟨a, ha⟩ ⟨b, hb⟩) := dif_pos ⟨ha, hb⟩

/-- Inside the matrix `at2` is the entry. -/
theorem at2_ix2 {A B : Nat} (v : (⟨2, ![A, B]⟩ : Shape).Idx → EReal) (a : Fin A) (b : Fin B) :
    v (ix2 a b) = at2 v a.val b.val := (at2_of_lt v a.isLt b.isLt).symm

/-- The same at an index given whole. -/
theorem at2_idx {A B : Nat} (v : (⟨2, ![A, B]⟩ : Shape).Idx → EReal) (j : (⟨2, ![A, B]⟩ : Shape).Idx) :
    v j = at2 v (j 0).val (j 1).val := by
  conv_lhs => rw [eq_ix2 j]
  exact at2_ix2 v (j 0) (j 1)

/-- Outside its columns a matrix reads 0. -/
theorem at2_of_col_ge {A B : Nat} (v : (⟨2, ![A, B]⟩ : Shape).Idx → EReal) {a b : Nat} (hb : B ≤ b) : at2 v a b = 0 :=
  dif_neg fun h => absurd h.2 (Nat.not_lt.2 hb)

/-- Outside its rows a matrix reads 0. -/
theorem at2_of_row_ge {A B : Nat} (v : (⟨2, ![A, B]⟩ : Shape).Idx → EReal) {a b : Nat} (ha : A ≤ a) : at2 v a b = 0 :=
  dif_neg fun h => absurd h.1 (Nat.not_lt.2 ha)

/-- A sum over the first n·B naturals, taken block by block. -/
theorem sum_by_blocks {M : Type*} [AddCommMonoid M] (h : Nat → M) (B : Nat) :
    ∀ n : Nat, ∑ s ∈ Finset.range n, ∑ q ∈ Finset.range B, h (s * B + q) = ∑ p ∈ Finset.range (n * B), h p
  | 0 => by simp
  | n + 1 => by
    rw [Finset.sum_range_succ, sum_by_blocks h B n, Nat.succ_mul, Finset.sum_range_add]

/-- Terms that vanish from position n on do not count. -/
theorem sum_padded {M : Type*} [AddCommMonoid M] (h : Nat → M) (n p : Nat) (hz : ∀ q, n ≤ q → h q = 0) :
    ∑ q ∈ Finset.range (n + p), h q = ∑ q ∈ Finset.range n, h q := by
  rw [Finset.sum_range_add, Finset.sum_eq_zero (fun q _ => hz (n + q) (Nat.le_add_right n q)), add_zero]

end Cert.PaddedSums

end
-- ==== Proof.Step.lean ====
/-
  One accumulation step, with its blocks read out of the region's arrays.

  Step n (column tile n / 16, contraction step n % 16) adds to entry (r, c) of the accumulator the partial dot product
      Σ_{q < 1280}  L(r, (n % 16)·1280 + q) · R((n % 16)·1280 + q, (n / 16)·1024 + c)
  of the padded left matrix L and the padded right matrix R. Written with natural-number coordinates (0 outside the
  matrices), this `addend` is a function of every natural n, which is how the run of steps is summed later.
-/
import proofs.«116346_j88691074662715_1_alg».proof.Proof.Payload
import proofs.«116346_j88691074662715_1_alg».proof.Proof.Blocks
import proofs.«116346_j88691074662715_1_alg».proof.Proof.LibPaddedSums

noncomputable section

open scoped BigOperators

namespace Cert.KernelIdeal.Step

open Cert.KernelIdeal Cert.KernelIdeal.Gen Cert.PaddedSums
open Idealize.ShloMosaic Idealize.ShloMosaic.TcCoe Idealize.SL.Sem Idealize.ShloMosaic.ValueIdx

variable (m : (ℓ : Loc nD τ sig) → Buf (Elt Ideal) ℓ)

/-- The padded left matrix [1024, 20480] as the region finds it. -/
abbrev lhs (c : Dev nD) : S1024x20480.Idx → EReal := V m c main_v21
/-- The padded right matrix [20480, 4096] as the region finds it. -/
abbrev rhs (c : Dev nD) : S20480x4096.Idx → EReal := V m c main_v20

/-- The partial dot product step n adds at entry i of the accumulator. -/
def addend (c : Dev nD) (n : Nat) (i : S1024x1024.Idx) : EReal :=
  ∑ q ∈ Finset.range 1280,
    at2 (lhs m c) (i 0).val (n % 16 * 1280 + q) * at2 (rhs m c) (n % 16 * 1280 + q) (n / 16 * 1024 + (i 1).val)

/-- Step n turns the accumulator `acc` into `acc + addend n`, entry by entry. -/
theorem accumulate_step (c : Dev nD) (n : Nat) (h : n < cfg0.N) (acc : Vec Ideal S1024x1024 .f32) (i : S1024x1024.Idx) :
    k0_pay2 (iblk m c 0 ⟨n, h⟩) (iblk m c 1 ⟨n, h⟩) acc i = acc i + addend m c n i := by
  obtain ⟨r, c', rfl⟩ : ∃ (r : Fin 1024) (c' : Fin 1024), i = ix2 r c' := ⟨i 0, i 1, eq_ix2 i⟩
  refine (Payload.accumulate (iblk m c 0 ⟨n, h⟩) (iblk m c 1 ⟨n, h⟩) acc r c').trans ?_
  congr 1
  unfold addend
  refine Eq.trans ?_ (Fin.sum_univ_eq_sum_range
    (fun q => at2 (lhs m c) r.val (n % 16 * 1280 + q) * at2 (rhs m c) (n % 16 * 1280 + q) (n / 16 * 1024 + c'.val)) 1280)
  refine Finset.sum_congr rfl fun q _ => ?_
  have e0 := Blocks.lhs_block m c ⟨n, h⟩ r q
  have e1 := Blocks.rhs_block m c ⟨n, h⟩ q c'
  rw [e0, e1]
  exact congrArg₂ (· * ·) (at2_ix2 (lhs m c) r _) (at2_ix2 (rhs m c) _ _)

end Cert.KernelIdeal.Step

end
-- ==== Proof.Fold.lean ====
/-
  The accumulator after any grid step.

  The steps come in runs of 16 (one run per column tile): the run's first step resets the accumulator to
  0 + its addend and each later step adds its own. So after step t the accumulator holds, entry by entry,
      0 + Σ_{s ≤ t % 16} addend(16·(t / 16) + s).
-/
import proofs.«116346_j88691074662715_1_alg».proof.Proof.Gen.KernelIdeal.Value
import proofs.«116346_j88691074662715_1_alg».proof.Proof.Pieces
import proofs.«116346_j88691074662715_1_alg».proof.Proof.Step

noncomputable section

open scoped BigOperators

namespace Cert.KernelIdeal.Fold

open Cert.KernelIdeal Cert.KernelIdeal.Gen Cert.KernelIdeal.Step
open Idealize.ShloMosaic Idealize.ShloMosaic.TcCoe Idealize.SL.Sem Idealize.ShloMosaic.ValueIdx

variable (m : (ℓ : Loc nD τ sig) → Buf (Elt Ideal) ℓ)

/-- A run's first step leaves 0 + its addend, whatever the accumulator held. -/
theorem first_step (c : Dev nD) (n : Nat) (h : n < cfg0.N) (h0 : n % 16 = 0) (junk : Vec Ideal S1024x1024 .f32)
    (i : S1024x1024.Idx) :
    Value.scAt0_0 m c n h junk i = 0 + addend m c n i := by
  have h1 : ¬ n % 16 = 15 := by omega
  unfold Value.scAt0_0
  rw [dif_pos h0, dif_neg h1]
  refine (congrFun (Pieces.acc_first (F := Ideal) c (grid0.coords (⟨n, h⟩ : Fin cfg0.N)) (ms0_0 (⟨n, h⟩ : Fin cfg0.N)) (hs0_0 (⟨n, h⟩ : Fin cfg0.N)) (ms0_1 (⟨n, h⟩ : Fin cfg0.N)) (hs0_1 (⟨n, h⟩ : Fin cfg0.N)) (ms0_2 (⟨n, h⟩ : Fin cfg0.N)) (hs0_2 (⟨n, h⟩ : Fin cfg0.N)) (ms0_3 (⟨n, h⟩ : Fin cfg0.N)) (hs0_3 (⟨n, h⟩ : Fin cfg0.N)) scM0_0 (Memref.isWhole_whole _) ((hcond0_0 (⟨n, h⟩ : Fin cfg0.N)).mpr h0) (fun hh => h1 ((hcond0_1 (⟨n, h⟩ : Fin cfg0.N)).mp hh)) (iblk m c 0 (⟨n, h⟩ : Fin cfg0.N)) (iblk m c 1 (⟨n, h⟩ : Fin cfg0.N)) (iblk m c 2 (⟨n, h⟩ : Fin cfg0.N))) i).trans ?_
  refine (accumulate_step m c n h _ i).trans ?_
  rw [Payload.zero_fill]

/-- A later step of the run adds its addend to what the step before left. -/
theorem later_step (c : Dev nD) (n : Nat) (h : n < cfg0.N) (h0 : ¬ n % 16 = 0) (acc : Vec Ideal S1024x1024 .f32)
    (i : S1024x1024.Idx) :
    Value.scAt0_0 m c n h acc i = acc i + addend m c n i := by
  unfold Value.scAt0_0
  rw [dif_neg h0]
  by_cases h1 : n % 16 = 15
  · rw [dif_pos h1]
    refine (congrFun (Pieces.acc_last (F := Ideal) c (grid0.coords (⟨n, h⟩ : Fin cfg0.N)) (ms0_0 (⟨n, h⟩ : Fin cfg0.N)) (hs0_0 (⟨n, h⟩ : Fin cfg0.N)) (ms0_1 (⟨n, h⟩ : Fin cfg0.N)) (hs0_1 (⟨n, h⟩ : Fin cfg0.N)) (ms0_2 (⟨n, h⟩ : Fin cfg0.N)) (hs0_2 (⟨n, h⟩ : Fin cfg0.N)) (ms0_3 (⟨n, h⟩ : Fin cfg0.N)) (hs0_3 (⟨n, h⟩ : Fin cfg0.N)) scM0_0 (Memref.isWhole_whole _) (fun hh => h0 ((hcond0_0 (⟨n, h⟩ : Fin cfg0.N)).mp hh)) ((hcond0_1 (⟨n, h⟩ : Fin cfg0.N)).mpr h1) (iblk m c 0 (⟨n, h⟩ : Fin cfg0.N)) (iblk m c 1 (⟨n, h⟩ : Fin cfg0.N)) (iblk m c 2 (⟨n, h⟩ : Fin cfg0.N)) acc) i).trans ?_
    exact accumulate_step m c n h acc i
  · rw [dif_neg h1]
    refine (congrFun (Pieces.acc_middle (F := Ideal) c (grid0.coords (⟨n, h⟩ : Fin cfg0.N)) (ms0_0 (⟨n, h⟩ : Fin cfg0.N)) (hs0_0 (⟨n, h⟩ : Fin cfg0.N)) (ms0_1 (⟨n, h⟩ : Fin cfg0.N)) (hs0_1 (⟨n, h⟩ : Fin cfg0.N)) (ms0_2 (⟨n, h⟩ : Fin cfg0.N)) (hs0_2 (⟨n, h⟩ : Fin cfg0.N)) (ms0_3 (⟨n, h⟩ : Fin cfg0.N)) (hs0_3 (⟨n, h⟩ : Fin cfg0.N)) scM0_0 (Memref.isWhole_whole _) (fun hh => h0 ((hcond0_0 (⟨n, h⟩ : Fin cfg0.N)).mp hh)) (fun hh => h1 ((hcond0_1 (⟨n, h⟩ : Fin cfg0.N)).mp hh)) (iblk m c 0 (⟨n, h⟩ : Fin cfg0.N)) (iblk m c 1 (⟨n, h⟩ : Fin cfg0.N)) (iblk m c 2 (⟨n, h⟩ : Fin cfg0.N)) acc) i).trans ?_
    exact accumulate_step m c n h acc i

/-- The accumulator after step t: 0 plus the addends of its run up to t. -/
theorem acc_after (c : Dev nD) (t : Fin cfg0.N) (i : S1024x1024.Idx) :
    (outsAt0 m c t.val t.isLt).2 i
      = 0 + ∑ s ∈ Finset.range (t.val % 16 + 1), addend m c (16 * (t.val / 16) + s) i := by
  rw [Value.soutsAt0_0_eq m c t]
  exact Pipeline.accAt_add_apply
    (fun n h => Value.scAt0_0 m c n h (VS0_0.read (Elt Ideal) VS0_0.junk)) (Value.scAt0_0 m c)
    (fun _ => (0 : EReal)) (addend m c) (16 * (t.val / 16)) 15
    (fun h i => first_step m c _ h (by omega) _ i)
    (fun n h acc i hb he => later_step m c n h (by omega) acc i)
    (t.val % 16) (by omega) _ i

end Cert.KernelIdeal.Fold

end
-- ==== Proof.Entry.lean ====
/-
  What the region finds in its three input arrays, as functions of the program's arguments.

  Before the kernel runs, the host code (a) builds the [20000, 4096] weight matrix by scatter-adding the weight vector
  at the (normalised) index pairs, (b) zero-pads the contraction axis of both matrices from 20000 to 20480, narrowing
  the left one to bf16, and (c) views the bias vector as a [1, 4096] row. `weights` names the scatter's result and is
  never opened: the reference builds the same matrix by the same operations.
-/
import proofs.«116346_j88691074662715_1_alg».proof.Proof.Gen.KernelIdeal.Frame
import Idealize.ShloMosaic.Lib.StableHlo.Run
import Idealize.ShloMosaic.Lib.Pipeline.Value
import Idealize.ShloMosaic.Lib.ValueIdx

noncomputable section

namespace Cert.KernelIdeal.Entry

open Cert.KernelIdeal Cert.KernelIdeal.Gen Idealize.ShloMosaic Idealize.ShloMosaic.TcCoe Idealize.SL.Sem Idealize.ShloMosaic.StableHlo

variable {F : FTy → Type} [FloatOps F]
variable (m : (ℓ : Loc nD τ sig) → Buf (Elt F) ℓ)

/-- The dense weight matrix: zeros, with the weight vector's entries added at the index pairs (a negative index
    counted from the end of its axis). -/
def weights (x1 : Vec F S800000 .f32) (x3 : Vec F S800000x2 .i32) : Vec F S20000x4096 .f32 :=
  Host.scatterAdd scatter_S20000x4096_S800000x2_S800000_n_01_01_1 (broadcastInDim S20000x4096 ![] bcast_S_S20000x4096 (constant S_ .f32 0x00000000#32)) (concatenate S800000x2 1 [⟨S800000x1, (broadcastInDim S800000x1 ![0] bcast_S800000_S800000x1_0 (select (cmpi .slt (shapeCast _ (extractStridedSlice S800000x1 ![0, 0] (x3) slices_S800000x2_S800000x1_0_0) shapeCasts_S800000x1_S800000) (broadcastInDim S800000 ![] bcast_S_S800000 (constantI S_ 32 0#32))) (addi (shapeCast _ (extractStridedSlice S800000x1 ![0, 0] (x3) slices_S800000x2_S800000x1_0_0) shapeCasts_S800000x1_S800000) (broadcastInDim S800000 ![] bcast_S_S800000 (constantI S_ 32 20000#32))) (shapeCast _ (extractStridedSlice S800000x1 ![0, 0] (x3) slices_S800000x2_S800000x1_0_0) shapeCasts_S800000x1_S800000)))⟩, ⟨S800000x1, (broadcastInDim S800000x1 ![0] bcast_S800000_S800000x1_0 (select (cmpi .slt (shapeCast _ (extractStridedSlice S800000x1 ![0, 1] (x3) slices_S800000x2_S800000x1_0_1) shapeCasts_S800000x1_S800000) (broadcastInDim S800000 ![] bcast_S_S800000 (constantI S_ 32 0#32))) (addi (shapeCast _ (extractStridedSlice S800000x1 ![0, 1] (x3) slices_S800000x2_S800000x1_0_1) shapeCasts_S800000x1_S800000) (broadcastInDim S800000 ![] bcast_S_S800000 (constantI S_ 32 4096#32))) (shapeCast _ (extractStridedSlice S800000x1 ![0, 1] (x3) slices_S800000x2_S800000x1_0_1) shapeCasts_S800000x1_S800000)))⟩] concatenates_S800000x1_S800000x1_S800000x2_d1) (x1)

/-- The value both paddings fill with: the integer 0 converted to a float. -/
abbrev padValue : Vec F S_ .f32 := sitofp (F := F) .f32 (constantI S_ 32 0#32)

/-- The left matrix as the region finds it: the first argument padded on its columns, then narrowed. -/
theorem lhs_entry (c : Dev nD) :
    (V m c main_v21 : S1024x20480.Idx → Elt F .bf16) =
      truncf .bf16 (pad S1024x20480 ![0, 0] ![0, 480] ![0, 0] (m ((c : Thread nD τ).loc main_arg0)) (padValue (F := F)) pads_S1024x20000_S1024x20480_000_04800 h_S_) bitsLt_bf16_f32 := by
  dsimp only [V]
  simp only [hostOps0, hostOps0_1, hostOps0_2, hostOps0_3, hostOps0_4, List.flatten_cons, List.flatten_nil, List.append_nil, List.cons_append, List.nil_append]
  after_results
  rfl

/-- The bias row as the region finds it: the third argument viewed as one row. -/
theorem bias_entry (c : Dev nD) :
    (V m c main_v22 : S1x4096.Idx → Elt F .f32) = shapeCast S1x4096 (m ((c : Thread nD τ).loc main_arg2)) shapeCasts_S4096_S1x4096 := by
  dsimp only [V]
  simp only [hostOps0, hostOps0_1, hostOps0_2, hostOps0_3, hostOps0_4, List.flatten_cons, List.flatten_nil, List.append_nil, List.cons_append, List.nil_append]
  after_results
  rfl

set_option maxHeartbeats 4000000 in
/-- The right matrix as the region finds it: the weight matrix padded on its rows. -/
theorem rhs_entry (c : Dev nD) :
    (V m c main_v20 : S20480x4096.Idx → Elt F .f32) =
      pad S20480x4096 ![0, 0] ![480, 0] ![0, 0]
        (weights (m ((c : Thread nD τ).loc main_arg1)) (m ((c : Thread nD τ).loc main_arg3)))
        (padValue (F := F)) pads_S20000x4096_S20480x4096_04800_000 h_S_ := by
  dsimp only [V]
  simp only [hostOps0, hostOps0_1, hostOps0_2, hostOps0_3, hostOps0_4, List.flatten_cons, List.flatten_nil, List.append_nil, List.cons_append, List.nil_append]
  after_results
  rfl

end Cert.KernelIdeal.Entry

end
-- ==== Proof.EntryAt.lean ====
/-
  The region's input arrays read entry by entry on the extended reals.

  Padding the contraction axis with zeros means: at a contraction position below 20000 the padded matrix is the
  unpadded one, and from 20000 on it is 0. (Narrowing to bf16 is the identity on the extended reals, and the padding
  value, the integer 0 as a float, is the extended real 0.)
-/
import proofs.«116346_j88691074662715_1_alg».proof.Proof.Entry
import proofs.«116346_j88691074662715_1_alg».proof.Proof.LibPaddedSums
import Idealize.ShloMosaic.Lib.KernelVsHost

noncomputable section

namespace Cert.KernelIdeal.EntryAt

open Cert.KernelIdeal Cert.KernelIdeal.Gen Cert.KernelIdeal.Entry Cert.PaddedSums
open Idealize.ShloMosaic Idealize.ShloMosaic.TcCoe Idealize.SL.Sem Idealize.ShloMosaic.ValueIdx

variable (m : (ℓ : Loc nD τ sig) → Buf (Elt Ideal) ℓ)

/-- The padding value is 0. -/
theorem padValue_zero (i : S_.Idx) : padValue (F := Ideal) i = 0 := by
  show (((0#32 : BitVec 32).toInt : ℝ) : EReal) = 0
  simp

/-- The left matrix at (r, p): the first argument there for p < 20000, else 0. -/
theorem lhs_at (c : Dev nD) (r : Fin 1024) (p : Nat) :
    at2 (V m c main_v21 : S1024x20480.Idx → EReal) r.val p
      = if p < 20000 then at2 (m ((c : Thread nD τ).loc main_arg0) : S1024x20000.Idx → EReal) r.val p else 0 := by
  by_cases hp : p < 20480
  · rw [at2_of_lt _ r.isLt hp, lhs_entry]
    show pad S1024x20480 ![0, 0] ![0, 480] ![0, 0] (m ((c : Thread nD τ).loc main_arg0)) (padValue (F := Ideal)) pads_S1024x20000_S1024x20480_000_04800 h_S_ (ix2 ⟨r.val, r.isLt⟩ ⟨p, hp⟩) = _
    by_cases hq : p < 20000
    · rw [if_pos hq, at2_of_lt _ r.isLt hq]
      exact pad_apply_of_inside (s := S1024x20000) (t := S1024x20480) ![0, 0] ![0, 480] ![0, 0]
        (m ((c : Thread nD τ).loc main_arg0)) (padValue (F := Ideal)) pads_S1024x20000_S1024x20480_000_04800 h_S_
        (ix2 ⟨r.val, r.isLt⟩ ⟨p, hp⟩) (ix2 ⟨r.val, r.isLt⟩ ⟨p, hq⟩)
        (fun a => by
          match a with
          | ⟨0, _⟩ => show r.val = 0 + r.val * (0 + 1); omega
          | ⟨1, _⟩ => show p = 0 + p * (0 + 1); omega)
    · rw [if_neg hq]
      refine (pad_apply_of_not_inside (s := S1024x20000) (t := S1024x20480) ![0, 0] ![0, 480] ![0, 0]
        (m ((c : Thread nD τ).loc main_arg0)) (padValue (F := Ideal)) pads_S1024x20000_S1024x20480_000_04800 h_S_
        (ix2 ⟨r.val, r.isLt⟩ ⟨p, hp⟩) (1 : Fin 2) ?_).trans (padValue_zero _)
      show ¬(0 ≤ p ∧ (p - 0) % (0 + 1) = 0 ∧ (p - 0) / (0 + 1) < 20000)
      omega
  · rw [at2_of_col_ge _ (Nat.not_lt.1 hp), if_neg (by omega)]

/-- The right matrix at (p, col): the weight matrix there for p < 20000, else 0. -/
theorem rhs_at (c : Dev nD) (p : Nat) (col : Fin 4096) :
    at2 (V m c main_v20 : S20480x4096.Idx → EReal) p col.val
      = if p < 20000 then at2 (weights (m ((c : Thread nD τ).loc main_arg1)) (m ((c : Thread nD τ).loc main_arg3)) : S20000x4096.Idx → EReal) p col.val else 0 := by
  by_cases hp : p < 20480
  · rw [at2_of_lt _ hp col.isLt, rhs_entry]
    by_cases hq : p < 20000
    · rw [if_pos hq, at2_of_lt _ hq col.isLt]
      exact pad_apply_of_inside (s := S20000x4096) (t := S20480x4096) ![0, 0] ![480, 0] ![0, 0]
        (weights (m ((c : Thread nD τ).loc main_arg1)) (m ((c : Thread nD τ).loc main_arg3))) (padValue (F := Ideal))
        pads_S20000x4096_S20480x4096_04800_000 h_S_
        (ix2 ⟨p, hp⟩ ⟨col.val, col.isLt⟩) (ix2 ⟨p, hq⟩ ⟨col.val, col.isLt⟩)
        (fun a => by
          match a with
          | ⟨0, _⟩ => show p = 0 + p * (0 + 1); omega
          | ⟨1, _⟩ => show col.val = 0 + col.val * (0 + 1); omega)
    · rw [if_neg hq]
      refine (pad_apply_of_not_inside (s := S20000x4096) (t := S20480x4096) ![0, 0] ![480, 0] ![0, 0]
        (weights (m ((c : Thread nD τ).loc main_arg1)) (m ((c : Thread nD τ).loc main_arg3))) (padValue (F := Ideal))
        pads_S20000x4096_S20480x4096_04800_000 h_S_
        (ix2 ⟨p, hp⟩ ⟨col.val, col.isLt⟩) (0 : Fin 2) ?_).trans (padValue_zero _)
      show ¬(0 ≤ p ∧ (p - 0) % (0 + 1) = 0 ∧ (p - 0) / (0 + 1) < 20000)
      omega
  · rw [at2_of_row_ge _ (Nat.not_lt.1 hp), if_neg (by omega)]

/-- The bias row at column col is the bias vector there. -/
theorem bias_at (c : Dev nD) (col : Fin 4096) :
    (V m c main_v22 : S1x4096.Idx → EReal) (ix2 (0 : Fin 1) col) = (m ((c : Thread nD τ).loc main_arg2) : S4096.Idx → EReal) (ix1 col) := by
  rw [bias_entry]
  exact shapeCast_apply _ shapeCasts_S4096_S1x4096 (ix2 (0 : Fin 1) col) (ix1 col) (by
    rw [Shape.rowMajor_val_one, Shape.rowMajor_val_two]
    show col.val = 0 * 4096 + col.val
    omega)

end Cert.KernelIdeal.EntryAt

end
-- ==== Proof.Contraction.lean ====
/-
  A column tile's whole run of 16 steps sums to the unpadded contraction.

  For row r and column col = j·1024 + c of the output, the run's addends are the partial dot products of the padded
  matrices over the 16 consecutive blocks of 1280 contraction positions; together they are the dot product over all
  20480 positions, whose last 480 terms vanish (the left matrix is 0 there), and the first 20000 are the terms of the
  unpadded matrices.
-/
import proofs.«116346_j88691074662715_1_alg».proof.Proof.EntryAt
import proofs.«116346_j88691074662715_1_alg».proof.Proof.Step

noncomputable section

open scoped BigOperators

namespace Cert.KernelIdeal.Contraction

open Cert.KernelIdeal Cert.KernelIdeal.Gen Cert.KernelIdeal.Step Cert.KernelIdeal.Entry Cert.PaddedSums
open Idealize.ShloMosaic Idealize.ShloMosaic.TcCoe Idealize.SL.Sem Idealize.ShloMosaic.ValueIdx

variable (m : (ℓ : Loc nD τ sig) → Buf (Elt Ideal) ℓ)

/-- The first argument, the [1024, 20000] batch x. -/
abbrev xArg (c : Dev nD) : S1024x20000.Idx → EReal := m ((c : Thread nD τ).loc main_arg0)
/-- The weight matrix w built from the second and fourth arguments. -/
abbrev wArg (c : Dev nD) : S20000x4096.Idx → EReal :=
  weights (m ((c : Thread nD τ).loc main_arg1)) (m ((c : Thread nD τ).loc main_arg3))

/-- The term of the padded dot product at contraction position p, for row r and column col. -/
def term (c : Dev nD) (r col p : Nat) : EReal := at2 (lhs m c) r p * at2 (rhs m c) p col

/-- From position 20000 on the terms vanish. -/
theorem term_padding (c : Dev nD) (r : Fin 1024) (col p : Nat) (hp : 20000 ≤ p) : term m c r.val col p = 0 := by
  unfold term
  rw [EntryAt.lhs_at, if_neg (by omega), zero_mul]

/-- Below 20000 they are the terms of the unpadded product x · w. -/
theorem term_inside (c : Dev nD) (r : Fin 1024) (col : Fin 4096) (k : Fin 20000) :
    term m c r.val col.val k.val = xArg m c (ix2 r k) * wArg m c (ix2 k col) := by
  unfold term
  rw [EntryAt.lhs_at, EntryAt.rhs_at, if_pos k.isLt, if_pos k.isLt]
  exact congrArg₂ (· * ·) (at2_ix2 (xArg m c) r k).symm (at2_ix2 (wArg m c) k col).symm

/-- Step 16·j + s of tile j adds the terms of block s. -/
theorem addend_eq (c : Dev nD) (j s : Nat) (hs : s < 16) (r c' : Fin 1024) :
    addend m c (16 * j + s) (ix2 r c') = ∑ q ∈ Finset.range 1280, term m c r.val (j * 1024 + c'.val) (s * 1280 + q) := by
  have a1 : (16 * j + s) % 16 = s := by omega
  have a2 : (16 * j + s) / 16 = j := by omega
  unfold addend term
  rw [a1, a2]

/-- The run of tile j sums to the contraction of x and w at (r, j·1024 + c'). -/
theorem run_sum (c : Dev nD) (j : Nat) (r c' : Fin 1024) (hcol : j * 1024 + c'.val < 4096) :
    ∑ s ∈ Finset.range 16, addend m c (16 * j + s) (ix2 r c')
      = ∑ k : Fin 20000, xArg m c (ix2 r k) * wArg m c (ix2 k (⟨j * 1024 + c'.val, hcol⟩ : Fin 4096)) := by
  rw [Finset.sum_congr rfl (fun s hs => addend_eq m c j s (Finset.mem_range.mp hs) r c'),
    sum_by_blocks (term m c r.val (j * 1024 + c'.val)) 1280 16,
    show 16 * 1280 = 20000 + 480 from by norm_num,
    sum_padded (term m c r.val (j * 1024 + c'.val)) 20000 480 (fun p hp => term_padding m c r _ p hp),
    ← Fin.sum_univ_eq_sum_range (term m c r.val (j * 1024 + c'.val)) 20000]
  exact Finset.sum_congr rfl fun k _ => term_inside m c r (⟨j * 1024 + c'.val, hcol⟩ : Fin 4096) k

end Cert.KernelIdeal.Contraction

end
-- ==== Proof.Spec.lean ====
/-
  The function both programs compute, on the extended reals:
      out(r, c) = tanh( Σ_{k < 20000} x(r, k) · w(k, c)  +  b(c) )
  a dense layer  tanh(x · w + b)  with x a [1024, 20000] batch, w a [20000, 4096] weight matrix and b a bias vector.
-/
import Idealize.ShloMosaic.Lib.ValueIdx
import Idealize.ShloMosaic.PureOps.Ideal

noncomputable section

open scoped BigOperators

namespace Cert.Spec

open Idealize.ShloMosaic Idealize.ShloMosaic.ValueIdx

/-- tanh(x · w + b), entry by entry. -/
def denseTanh (x : (⟨2, ![1024, 20000]⟩ : Shape).Idx → EReal) (w : (⟨2, ![20000, 4096]⟩ : Shape).Idx → EReal)
    (b : (⟨1, ![4096]⟩ : Shape).Idx → EReal) : (⟨2, ![1024, 4096]⟩ : Shape).Idx → EReal :=
  fun i => Ideal.tanh ((∑ k : Fin 20000, x (ix2 (i 0) k) * w (ix2 k (i 1))) + b (ix1 (i 1)))

theorem denseTanh_apply (x : (⟨2, ![1024, 20000]⟩ : Shape).Idx → EReal) (w : (⟨2, ![20000, 4096]⟩ : Shape).Idx → EReal)
    (b : (⟨1, ![4096]⟩ : Shape).Idx → EReal) (r : Fin 1024) (c : Fin 4096) :
    denseTanh x w b (ix2 r c) = Ideal.tanh ((∑ k : Fin 20000, x (ix2 r k) * w (ix2 k c)) + b (ix1 c)) := rfl

-- The definition is closed to unfolding by computation (its sum has 20000 terms); `denseTanh_apply` states it at an entry.
attribute [irreducible] denseTanh

end Cert.Spec

end
-- ==== Proof.KernelValue.lean ====
/-
  The kernel's result array: tanh(x · w + b), with w the scattered weight matrix.

  Only a tile's last step (t % 16 = 15) writes its output block back, and what it writes is the hyperbolic tangent of
  the run's final accumulator plus the bias block. Entry (r, c') of that block is entry (r, (t / 16)·1024 + c') of the
  result; the four tiles' blocks cover the [1024, 4096] array.
-/
import proofs.«116346_j88691074662715_1_alg».proof.Proof.Fold
import proofs.«116346_j88691074662715_1_alg».proof.Proof.Contraction
import proofs.«116346_j88691074662715_1_alg».proof.Proof.Spec

noncomputable section

open scoped BigOperators

namespace Cert.KernelIdeal.KernelValue

open Cert.KernelIdeal Cert.KernelIdeal.Gen Cert.KernelIdeal.Entry
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- The dense layer of the arguments. -/
abbrev result (c : Dev nD) : S1024x4096.Idx → EReal :=
  Cert.Spec.denseTanh (Contraction.xArg m c) (Contraction.wArg m c) (m ((c : Thread nD τ).loc main_arg2))

/-- At a tile's last step the output block is the epilogue of the accumulator that step leaves. -/
theorem out_at_last (c : Dev nD) (t : Fin cfg0.N) (h1 : t.val % 16 = 15) :
    (outsAt0 m c t.val t.isLt).1 = k0_pay3 (iblk m c 2 t) ((outsAt0 m c t.val t.isLt).2) := by
  have h0 : ¬ t.val % 16 = 0 := by omega
  rw [outsAt0_C m c t h0 h1]
  dsimp only
  exact (Pieces.out_last (F := Ideal) c (grid0.coords t) (ms0_0 t) (hs0_0 t) (ms0_1 t) (hs0_1 t) (ms0_2 t) (hs0_2 t) (ms0_3 t) (hs0_3 t) scM0_0 (Memref.isWhole_whole _) (fun hh => h0 ((hcond0_0 t).mp hh)) ((hcond0_1 t).mpr h1) (iblk m c 0 t) (iblk m c 1 t) (iblk m c 2 t)
      (outsAt0 m c (t.val - 1) (Nat.lt_of_le_of_lt (Nat.sub_le _ _) t.isLt)).2).trans
    (congrArg (k0_pay3 (iblk m c 2 t))
      (Pieces.acc_last (F := Ideal) c (grid0.coords t) (ms0_0 t) (hs0_0 t) (ms0_1 t) (hs0_1 t) (ms0_2 t) (hs0_2 t) (ms0_3 t) (hs0_3 t) scM0_0 (Memref.isWhole_whole _) (fun hh => h0 ((hcond0_0 t).mp hh)) ((hcond0_1 t).mpr h1) (iblk m c 0 t) (iblk m c 1 t) (iblk m c 2 t)
        (outsAt0 m c (t.val - 1) (Nat.lt_of_le_of_lt (Nat.sub_le _ _) t.isLt)).2).symm)

/-- What a writing step writes back is its block of the dense layer. -/
theorem flushed_eq (c : Dev nD) (t : Fin cfg0.N) (hf : (cfg0.win 3).flush t = true) :
    (dats m 0 c).flushed 3 t = ((cfg0.win 3).blk t).view.read (Elt Ideal) (result m c) := by
  have h1 : t.val % 16 = 15 := (flush0_3 t).mp hf
  have hi := Blocks.out_index t
  have ht := Blocks.step_lt t
  show (cfg0.win 3).cut (grid0.coords t) ((dats m 0 c).after 3 t) = _
  rw [after0_3, out_at_last m c t h1]
  funext j
  obtain ⟨r, c', rfl⟩ : ∃ (r : Fin 1024) (c' : Fin 1024), j = ix2 r c' := ⟨j 0, j 1, eq_ix2 j⟩
  have hc' := c'.isLt
  have hcol : t.val / 16 * 1024 + c'.val < 4096 := by omega
  show k0_pay3 (iblk m c 2 t) ((outsAt0 m c t.val t.isLt).2) (ix2 r c') = result m c (((cfg0.win 3).blk t).view.emb (ix2 r c'))
  have hemb : ((cfg0.win 3).blk t).view.emb (ix2 r c') = ix2 r ⟨t.val / 16 * 1024 + c'.val, hcol⟩ := by
    funext a
    apply Fin.ext
    match a with
    | ⟨0, _⟩ => show win0_3.index t 0 * 1024 + 1 * r.val = r.val; rw [hi.1]; omega
    | ⟨1, _⟩ => show win0_3.index t 1 * 1024 + 1 * c'.val = t.val / 16 * 1024 + c'.val; rw [hi.2]; omega
  rw [hemb, Payload.epilogue, Fold.acc_after, Blocks.bias_block m c t c', EntryAt.bias_at, h1, zero_add,
    Contraction.run_sum m c (t.val / 16) r c' hcol]
  exact (Cert.Spec.denseTanh_apply (Contraction.xArg m c) (Contraction.wArg m c) (m ((c : Thread nD τ).loc main_arg2)) r
    ⟨t.val / 16 * 1024 + c'.val, hcol⟩).symm

/-- Every entry of the result lies in the block of its tile's last step. -/
theorem cover (i : S1024x4096.Idx) : ∃ t : Fin cfg0.N, (cfg0.win 3).flush t = true ∧ i ∈ ((cfg0.win 3).blk t).view.set := by
  have h0 : (i 0).val < 1024 := (i 0).isLt
  have h1 : (i 1).val < 4096 := (i 1).isLt
  have hlt : 16 * ((i 1).val / 1024) + 15 < cfg0.N := by rw [show cfg0.N = 64 from N_0]; omega
  obtain ⟨t, ht⟩ : ∃ t : Fin cfg0.N, t.val = 16 * ((i 1).val / 1024) + 15 := ⟨⟨_, hlt⟩, rfl⟩
  have hi := Blocks.out_index t
  refine ⟨t, (flush0_3 t).mpr (by omega), ?_⟩
  show i ∈ ((View.whole main_v23).slice (win0_3.rect t)).set
  rw [View.set_slice_whole, Rect.mem_set_unit]
  intro a
  match a with
  | ⟨0, _⟩ =>
    show win0_3.index t 0 * 1024 ≤ (i 0).val ∧ (i 0).val < win0_3.index t 0 * 1024 + 1024
    rw [hi.1]; omega
  | ⟨1, _⟩ =>
    show win0_3.index t 1 * 1024 ≤ (i 1).val ∧ (i 1).val < win0_3.index t 1 * 1024 + 1024
    rw [hi.2]; omega

/-- So the result array ends holding the dense layer. -/
theorem final (c : Dev nD) : (dats m 0 c).arrAt 3 cfg0.N = result m c :=
  (dats m 0 c).arrAt_eq_of_cover 3 (result m c) (flushed_eq m c) cover

/-- The kernel program's run: the result array at the dense layer of the arguments, the arguments unchanged. -/
theorem run : θ_run defs (onTc (τ := τ) (main (F := Ideal))) ⟨m, fun _ => 0, ρ⟩ fun r => ∀ c : Dev nD,
      r.2.mem ((c : Thread nD τ).loc main_v23) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Value.run_blocks m ρ)

end Cert.KernelIdeal.KernelValue

end
-- ==== Proof.RefValue.lean ====
/-
  The reference computes the dense layer: its matrix product read as a sum over the 20000 contraction positions, its
  twice-broadcast bias read at the column, its tanh applied entry by entry. The weight matrix is the reference's own
  scatter result, left unopened.
-/
import proofs.«116346_j88691074662715_1_alg».proof.Proof.Gen.ReferenceIdeal.Read
import proofs.«116346_j88691074662715_1_alg».proof.Proof.Spec

noncomputable section

namespace Cert.ReferenceIdeal.RefValue

open Cert.ReferenceIdeal Cert.ReferenceIdeal.Read Idealize.ShloMosaic Idealize.ShloMosaic.ValueIdx

/-- The reference's result is tanh(x · w + b) with w its scattered weight matrix. -/
theorem result_eq (x0 : Vec Ideal S1024x20000 .f32) (x1 : Vec Ideal S800000 .f32) (x2 : Vec Ideal S4096 .f32)
    (x3 : Vec Ideal S800000x2 .i32) :
    val_main_v23 (F := Ideal) x0 x1 x2 x3 = Cert.Spec.denseTanh x0 (val_main_v18 (F := Ideal) x1 x3) x2 := by
  funext i
  have el : ∀ k, lidx_main_v19 i k = ix2 (i 0) k := fun k => funext fun a => Fin.ext (by
    match a with
    | ⟨0, _⟩ => rfl
    | ⟨1, _⟩ => rfl)
  have er : ∀ k, ridx_main_v19 i k = ix2 k (i 1) := fun k => funext fun a => Fin.ext (by
    match a with
    | ⟨0, _⟩ => rfl
    | ⟨1, _⟩ => rfl)
  have eb : idx_main_v20 (idx_main_v21 i) = ix1 (i 1) := funext fun a => Fin.ext (by
    match a with
    | ⟨0, _⟩ => rfl)
  rw [val_main_v23_apply, val_main_v22_apply, val_main_v19_apply, val_main_v21_apply, val_main_v20_apply]
  simp only [el, er, eb, Ideal.hostUnary_tanh_def, Ideal.addf_def]
  unfold Cert.Spec.denseTanh
  rfl

end Cert.ReferenceIdeal.RefValue

end
-- ==== Proof.SameWeights.lean ====
/-
  Both programs build the weight matrix by the same host operations on the same two arguments, so the kernel side's
  `weights` and the reference's scatter stage are one function.
-/
import proofs.«116346_j88691074662715_1_alg».proof.Proof.Entry
import proofs.«116346_j88691074662715_1_alg».proof.Proof.Gen.ReferenceIdeal.Read

noncomputable section

namespace Cert.SameWeights

open Idealize.ShloMosaic

variable {F : FTy → Type} [FloatOps F]

/-- The weight matrix is the same on both sides. -/
theorem weights_eq (x1 : Vec F Cert.KernelIdeal.S800000 .f32) (x3 : Vec F Cert.KernelIdeal.S800000x2 .i32) :
    Cert.KernelIdeal.Entry.weights x1 x3 = Cert.ReferenceIdeal.Read.val_main_v18 (F := F) x1 x3 := by
  unfold Cert.KernelIdeal.Entry.weights Cert.ReferenceIdeal.Read.val_main_v18 Cert.ReferenceIdeal.Read.val_main_v17
    Cert.ReferenceIdeal.Read.val_main_v16 Cert.ReferenceIdeal.Read.val_main_v15 Cert.ReferenceIdeal.Read.val_main_v14
    Cert.ReferenceIdeal.Read.val_main_v13 Cert.ReferenceIdeal.Read.val_main_v12 Cert.ReferenceIdeal.Read.val_main_v11
    Cert.ReferenceIdeal.Read.val_main_v10 Cert.ReferenceIdeal.Read.val_main_v9 Cert.ReferenceIdeal.Read.val_main_v8
    Cert.ReferenceIdeal.Read.val_main_v7 Cert.ReferenceIdeal.Read.val_main_v6 Cert.ReferenceIdeal.Read.val_main_v5
    Cert.ReferenceIdeal.Read.val_main_v4 Cert.ReferenceIdeal.Read.val_main_v3 Cert.ReferenceIdeal.Read.val_main_v2
    Cert.ReferenceIdeal.Read.val_main_v1 Cert.ReferenceIdeal.Read.val_main_v0 Cert.ReferenceIdeal.Read.val_main_cst
    Cert.ReferenceIdeal.Read.val_main_c Cert.ReferenceIdeal.Read.val_main_c_0 Cert.ReferenceIdeal.Read.val_main_c_1
    Cert.ReferenceIdeal.Read.val_main_c_2
  rfl

end Cert.SameWeights

end
-- ==== Proof.lean ====
/-
  The certificate: a Pallas kernel computing  tanh(x · w + b)  against its jnp reference, where w is a [20000, 4096]
  weight matrix scatter-added from 800000 (index pair, value) triples.

  Both programs build w by the same host operations. The reference then takes one [1024, 20000] × [20000, 4096] product,
  adds the bias and applies tanh. The kernel zero-pads the contraction axis to 20480, and for each of four column
  tiles runs 16 steps, each adding a [1024, 1280] × [1280, 1024] block product into an accumulator that the first step
  zeroes; the last step writes tanh(accumulator + bias block). On the extended reals the 16 block products of a tile sum
  to the dot product over all 20480 positions, the 480 padded positions contribute 0 · 0 = 0, and what is left is the
  reference's sum over 20000 positions: only associativity and commutativity of + are used, so the inputs' finiteness is
  never needed. The frames of the two kernel programs are the generated ones; the reference's frame is its run with the
  result dropped; the idealization rewrote nothing.
-/
import proofs.«116346_j88691074662715_1_alg».proof.Defs
import proofs.«116346_j88691074662715_1_alg».proof.Proof.Gen.Kernel
import proofs.«116346_j88691074662715_1_alg».proof.Proof.Gen.Kernel.Skeleton
import proofs.«116346_j88691074662715_1_alg».proof.Proof.Gen.Kernel.Launch
import proofs.«116346_j88691074662715_1_alg».proof.Proof.Gen.Kernel.Points
import proofs.«116346_j88691074662715_1_alg».proof.Proof.Gen.Kernel.Frame
import proofs.«116346_j88691074662715_1_alg».proof.Proof.Gen.KernelIdeal
import proofs.«116346_j88691074662715_1_alg».proof.Proof.Gen.KernelIdeal.Skeleton
import proofs.«116346_j88691074662715_1_alg».proof.Proof.Gen.KernelIdeal.Launch
import proofs.«116346_j88691074662715_1_alg».proof.Proof.Gen.KernelIdeal.Points
import proofs.«116346_j88691074662715_1_alg».proof.Proof.Gen.KernelIdeal.Frame
import proofs.«116346_j88691074662715_1_alg».proof.Proof.Gen.ReferenceIdeal
import proofs.«116346_j88691074662715_1_alg».proof.Proof.Gen.Pre_finite_inputs
import proofs.«116346_j88691074662715_1_alg».proof.Proof.Gen.KernelIdeal.Value
import proofs.«116346_j88691074662715_1_alg».proof.Proof.Gen.ReferenceIdeal.Run
import proofs.«116346_j88691074662715_1_alg».proof.Proof.Gen.ReferenceIdeal.Read
import proofs.«116346_j88691074662715_1_alg».proof.Proof.KernelValue
import proofs.«116346_j88691074662715_1_alg».proof.Proof.RefValue
import proofs.«116346_j88691074662715_1_alg».proof.Proof.SameWeights
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run, the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both runs end with the dense layer tanh(x · w + b) of arguments that agree. -/
theorem algebraic : Cert.algebraic_KernelIdeal_ReferenceIdeal := by
  intro m ρ m' ρ' _ hagree
  refine ⟨fun c => Cert.KernelIdeal.KernelValue.result m c, Cert.KernelIdeal.KernelValue.run m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v23_eq (F := Ideal) _ _ _ _).trans ?_
  rw [Cert.ReferenceIdeal.RefValue.result_eq, (hagree c).1, (hagree c).2.1, (hagree c).2.2.1, (hagree c).2.2.2,
    ← Cert.SameWeights.weights_eq]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
